-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S50000x300 : Shape := ⟨2, ![50000, 300]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : IVec S131072 32) (main_arg1 : IVec S131072 32) (main_arg2 : FVec F S50000x300 .f32) : IVec S_ 1 :=
  let main_v0 : FVec F S50000x300 .f32 := Host.absf main_arg2
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_c_0 : IVec S_ 32 := constantI S_ 32 0#32
  let main_v4 : IVec S131072 32 := broadcastInDim S131072 ![] bcast_S_S131072 main_c_0
  let main_v5 : IVec S131072 1 := cmpi .sge main_arg1 main_v4
  let main_c_1 : IVec S_ 1 := constantI S_ 1 1#1
  let main_v6 : IVec S_ 1 := (fun x v => Host.reduce IntOp.andi x v reducesTo_S131072_S_d0 h_S_) main_v5 main_c_1
  let main_v7 : IVec S_ 1 := andi main_v3 main_v6
  let main_c_2 : IVec S_ 32 := constantI S_ 32 50000#32
  let main_v8 : IVec S131072 32 := broadcastInDim S131072 ![] bcast_S_S131072 main_c_2
  let main_v9 : IVec S131072 1 := cmpi .slt main_arg1 main_v8
  let main_c_3 : IVec S_ 1 := constantI S_ 1 1#1
  let main_v10 : IVec S_ 1 := (fun x v => Host.reduce IntOp.andi x v reducesTo_S131072_S_d0 h_S_) main_v9 main_c_3
  let main_v11 : IVec S_ 1 := andi main_v7 main_v10
  main_v11
-- ==== Kernel.lean ====
abbrev S131072 : Shape := ⟨1, ![131072]⟩
abbrev S50000x300 : Shape := ⟨2, ![50000, 300]⟩
abbrev S_ : Shape := ⟨0, ![]⟩
abbrev S4096x50048 : Shape := ⟨2, ![4096, 50048]⟩
abbrev S131072x1 : Shape := ⟨2, ![131072, 1]⟩
abbrev S131072x2 : Shape := ⟨2, ![131072, 2]⟩
abbrev S50000x1 : Shape := ⟨2, ![50000, 1]⟩
abbrev S50000x301 : Shape := ⟨2, ![50000, 301]⟩
abbrev S50048x301 : Shape := ⟨2, ![50048, 301]⟩
abbrev S4096x300 : Shape := ⟨2, ![4096, 300]⟩
abbrev S2048x2944 : Shape := ⟨2, ![2048, 2944]⟩
abbrev S2944x301 : Shape := ⟨2, ![2944, 301]⟩
abbrev S2048x300 : Shape := ⟨2, ![2048, 300]⟩
abbrev S2048x301 : Shape := ⟨2, ![2048, 301]⟩
abbrev S2048x1 : Shape := ⟨2, ![2048, 1]⟩

abbrev nBuf : Space → Nat
  | .hbm => 41
  | .vmem => 7
  | .smem => 0
  | _ => 0

abbrev bufTy : (tb : Table) → Fin (tcTables nBuf tb) → BufTy
  | .hbm, ⟨0, _⟩ => ⟨S131072, .i32⟩
  | .hbm, ⟨1, _⟩ => ⟨S131072, .i32⟩
  | .hbm, ⟨2, _⟩ => ⟨S50000x300, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S131072, .i32⟩
  | .hbm, ⟨7, _⟩ => ⟨S131072, .i32⟩
  | .hbm, ⟨8, _⟩ => ⟨S_, .i32⟩
  | .hbm, ⟨9, _⟩ => ⟨S131072, .i32⟩
  | .hbm, ⟨10, _⟩ => ⟨S131072, .i32⟩
  | .hbm, ⟨11, _⟩ => ⟨S_, .bf16⟩
  | .hbm, ⟨12, _⟩ => ⟨S4096x50048, .bf16⟩
  | .hbm, ⟨13, _⟩ => ⟨S_, .i32⟩
  | .hbm, ⟨14, _⟩ => ⟨S131072, .i32⟩
  | .hbm, ⟨15, _⟩ => ⟨S131072, .i1⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S_, .i32⟩
  | .hbm, ⟨21, _⟩ => ⟨S131072, .i32⟩
  | .hbm, ⟨22, _⟩ => ⟨S131072, .i1⟩
  | .hbm, ⟨23, _⟩ => ⟨S_, .i32⟩
  | .hbm, ⟨24, _⟩ => ⟨S131072, .i32⟩
  | .hbm, ⟨25, _⟩ => ⟨S131072, .i32⟩
  | .hbm, ⟨26, _⟩ => ⟨S131072, .i32⟩
  | .hbm, ⟨27, _⟩ => ⟨S131072x1, .i32⟩
  | .hbm, ⟨28, _⟩ => ⟨S131072x1, .i32⟩
  | .hbm, ⟨29, _⟩ => ⟨S131072x2, .i32⟩
  | .hbm, ⟨30, _⟩ => ⟨S_, .bf16⟩
  | .hbm, ⟨31, _⟩ => ⟨S131072, .bf16⟩
  | .hbm, ⟨32, _⟩ => ⟨S4096x50048, .bf16⟩
  | .hbm, ⟨33, _⟩ => ⟨S50000x300, .bf16⟩
  | .hbm, ⟨34, _⟩ => ⟨S_, .bf16⟩
  | .hbm, ⟨35, _⟩ => ⟨S50000x1, .bf16⟩
  | .hbm, ⟨36, _⟩ => ⟨S50000x301, .bf16⟩
  | .hbm, ⟨37, _⟩ => ⟨S_, .i32⟩
  | .hbm, ⟨38, _⟩ => ⟨S_, .bf16⟩
  | .hbm, ⟨39, _⟩ => ⟨S50048x301, .bf16⟩
  | .hbm, ⟨40, _⟩ => ⟨S4096x300, .f32⟩
  | .local _ .vmem, ⟨0, _⟩ => ⟨S2048x2944, .bf16⟩
  | .local _ .vmem, ⟨1, _⟩ => ⟨S2048x2944, .bf16⟩
  | .local _ .vmem, ⟨2, _⟩ => ⟨S2944x301, .bf16⟩
  | .local _ .vmem, ⟨3, _⟩ => ⟨S2944x301, .bf16⟩
  | .local _ .vmem, ⟨4, _⟩ => ⟨S2048x300, .f32⟩
  | .local _ .vmem, ⟨5, _⟩ => ⟨S2048x300, .f32⟩
  | .local _ .vmem, ⟨6, _⟩ => ⟨S2048x301, .f32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_3 : Ref sig .tc := ⟨.hbm, 20, rfl⟩
abbrev main_v7 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_c_7 : Ref sig .tc := ⟨.hbm, 37, rfl⟩
abbrev main_call1_v0 : Ref sig .tc := ⟨.hbm, 38, rfl⟩
abbrev main_v20 : Ref sig .tc := ⟨.hbm, 39, rfl⟩
abbrev main_v21 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c16_i32 : BitVec 32 := 16#32
  let v13 : BitVec 1 := Scalar.cmpi .eq arg1 c16_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2944x301 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S131072 : S_.BroadcastsInDim S131072 (![] : Fin 0 → Fin S131072.rank)
  bcast_S_S4096x50048 : S_.BroadcastsInDim S4096x50048 (![] : Fin 0 → Fin S4096x50048.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bitsLt_bf16_f32 : FTy.bits .bf16 < FTy.bits .f32
  bcast_S_S50000x1 : S_.BroadcastsInDim S50000x1 (![] : Fin 0 → Fin S50000x1.rank)
  concatenates_S50000x300_S50000x1_S50000x301_d1 : Shape.Concatenates [S50000x300, S50000x1] S50000x301 1
  pads_S50000x301_S50048x301_0480_000 : S50000x301.Pads (![0, 0] : Fin 2 → Nat) ![48, 0] ![0, 0] S50048x301
  h_S_ : 0 < S_.numel
  inb_S2048x301_S2048x301_0_0 : ∀ a, (![0, 0] : Fin 2 → Nat) a + S2048x301.size a ≤ S2048x301.size a
  h_S2048x301 : 0 < S2048x301.numel
  shapeCasts_S2048x301_S2048x301 : S2048x301.ShapeCasts S2048x301
  inb_S2048x2944_S2048x2944_0_0 : ∀ a, (![0, 0] : Fin 2 → Nat) a + S2048x2944.size a ≤ S2048x2944.size a
  h_S2048x2944 : 0 < S2048x2944.numel
  shapeCasts_S2048x2944_S2048x2944 : S2048x2944.ShapeCasts S2048x2944
  inb_S2944x301_S2944x301_0_0 : ∀ a, (![0, 0] : Fin 2 → Nat) a + S2944x301.size a ≤ S2944x301.size a
  h_S2944x301 : 0 < S2944x301.numel
  shapeCasts_S2944x301_S2944x301 : S2944x301.ShapeCasts S2944x301
  slices_S2048x301_o0_0_S2048x300 : S2048x301.Slices ![0, 0] S2048x300
  slices_S2048x301_o0_300_S2048x1 : S2048x301.Slices ![0, 300] S2048x1
  broadcasts_S2048x1_S2048x300 : S2048x1.Broadcasts S2048x300
  inb_S2048x300_S2048x300_0_0 : ∀ a, (![0, 0] : Fin 2 → Nat) a + S2048x300.size a ≤ S2048x300.size a
  h_S2048x300 : 0 < S2048x300.numel
  scatter_S4096x50048_S131072x2_S131072_n_01_01_1_wf : ScatterDims.WF S4096x50048 S131072x2 S131072 [] [0, 1] [0, 1] 1
  dot_S2048x2944_S2944x301_S2048x301_1_0_0_1_n_n_wf : DotDims.WF S2048x2944 S2944x301 S2048x301 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2944.size a ≤ S4096x50048.size a
  hwx0_0 : ∀ i : grid0.Coords, EltTy.bits .bf16 = 32 ∨ (Rect.block (s := S4096x50048) S2048x2944.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2944x301.size a ≤ S50048x301.size a
  hwx0_1 : ∀ i : grid0.Coords, EltTy.bits .bf16 = 32 ∨ (Rect.block (s := S50048x301) S2944x301.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x300.size a ≤ S4096x300.size a
  hwx0_2 : ∀ i : grid0.Coords, EltTy.bits .f32 = 32 ∨ (Rect.block (s := S4096x300) S2048x300.size (cc0_transform_2 i) (hinb0_2 i)).WholeWords (EltTy.packing .f32)

variable [Facts₀]

def scatter_S4096x50048_S131072x2_S131072_n_01_01_1 : ScatterDims S4096x50048 S131072x2 S131072 where
  updateWindowDims := []
  insertedWindowDims := [0, 1]
  scatterDimsToOperandDims := [0, 1]
  indexVectorDim := 1
  wf := scatter_S4096x50048_S131072x2_S131072_n_01_01_1_wf
def dot_S2048x2944_S2944x301_S2048x301_1_0_0_1_n_n : DotDims S2048x2944 S2944x301 S2048x301 where
  lhsContracting := [1]
  rhsContracting := [0]
  lhsNonContracting := [0]
  rhsNonContracting := [1]
  lhsBatch := []
  rhsBatch := []
  wf := dot_S2048x2944_S2944x301_S2048x301_1_0_0_1_n_n_wf

abbrev win0_0 : Pipeline.Window sig grid0 :=
  Pipeline.Window.ofSpec (Memref.whole main_v16) S2048x2944.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2944x301.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2048x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072 : Shape := ⟨1, ![131072]⟩
abbrev S50000x300 : Shape := ⟨2, ![50000, 300]⟩
abbrev S_ : Shape := ⟨0, ![]⟩
abbrev S4096x50000 : Shape := ⟨2, ![4096, 50000]⟩
abbrev S131072x1 : Shape := ⟨2, ![131072, 1]⟩
abbrev S131072x2 : Shape := ⟨2, ![131072, 2]⟩
abbrev S4096 : Shape := ⟨1, ![4096]⟩
abbrev S4096x1 : Shape := ⟨2, ![4096, 1]⟩
abbrev S4096x300 : Shape := ⟨2, ![4096, 300]⟩

abbrev nBuf : Space → Nat
  | .hbm => 35
  | .vmem => 0
  | .smem => 0
  | _ => 0

abbrev bufTy : (tb : Table) → Fin (tcTables nBuf tb) → BufTy
  | .hbm, ⟨0, _⟩ => ⟨S131072, .i32⟩
  | .hbm, ⟨1, _⟩ => ⟨S131072, .i32⟩
  | .hbm, ⟨2, _⟩ => ⟨S50000x300, .f32⟩
  | .hbm, ⟨3, _⟩ => ⟨S_, .f32⟩
  | .hbm, ⟨4, _⟩ => ⟨S4096x50000, .f32⟩
  | .hbm, ⟨5, _⟩ => ⟨S_, .i32⟩
  | .hbm, ⟨6, _⟩ => ⟨S131072, .i32⟩
  | .hbm, ⟨7, _⟩ => ⟨S131072, .i1⟩
  | .hbm, ⟨8, _⟩ => ⟨S_, .i32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072x1, .i32⟩
  | .hbm, ⟨20, _⟩ => ⟨S131072x1, .i32⟩
  | .hbm, ⟨21, _⟩ => ⟨S131072x2, .i32⟩
  | .hbm, ⟨22, _⟩ => ⟨S_, .f32⟩
  | .hbm, ⟨23, _⟩ => ⟨S131072, .f32⟩
  | .hbm, ⟨24, _⟩ => ⟨S4096x50000, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x50000, .f32⟩
  | .hbm, ⟨33, _⟩ => ⟨S4096x50000, .f32⟩
  | .hbm, ⟨34, _⟩ => ⟨S4096x300, .f32⟩
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S4096x50000 : S_.BroadcastsInDim S4096x50000 (![] : Fin 0 → Fin S4096x50000.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S4096x50000_S4096_d1 : S4096x50000.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x50000_0_1 : S4096x1.BroadcastsInDim S4096x50000 (![0, 1] : Fin 2 → Fin S4096x50000.rank)
  scatter_S4096x50000_S131072x2_S131072_n_01_01_1_wf : ScatterDims.WF S4096x50000 S131072x2 S131072 [] [0, 1] [0, 1] 1
  dot_S4096x50000_S50000x300_S4096x300_1_0_0_1_n_n_wf : DotDims.WF S4096x50000 S50000x300 S4096x300 [1] [0] [0] [1] [] []

variable [Facts₀]

def scatter_S4096x50000_S131072x2_S131072_n_01_01_1 : ScatterDims S4096x50000 S131072x2 S131072 where
  updateWindowDims := []
  insertedWindowDims := [0, 1]
  scatterDimsToOperandDims := [0, 1]
  indexVectorDim := 1
  wf := scatter_S4096x50000_S131072x2_S131072_n_01_01_1_wf
def dot_S4096x50000_S50000x300_S4096x300_1_0_0_1_n_n : DotDims S4096x50000 S50000x300 S4096x300 where
  lhsContracting := [1]
  rhsContracting := [0]
  lhsNonContracting := [0]
  rhsNonContracting := [1]
  lhsBatch := []
  rhsBatch := []
  wf := dot_S4096x50000_S50000x300_S4096x300_1_0_0_1_n_n_wf

class Facts : Prop extends Facts₀ where

variable [Facts]
-- ==== Proof.Spec.lean ====
/-
  The two programs as functions of their arrays, over the extended reals.

  The kernel multiplies a 0/1 membership mask `mp` (4096 rows, 50048 columns, the last 48 padding) with the embedding
  table widened by a column of ones and padded by 48 zero rows (`ea`, 50048 × 301): column `j < 300` of the product is
  the sum of the embeddings of a row's neighbours, column 300 is the number of neighbours. The result divides the
  first by the second, the count bounded below by the constant `cEps`.

  The reference divides each mask entry by the row's count (bounded below in the same way) first, and then multiplies
  by the embedding table.
-/
import Idealize.ShloMosaic.PureOps.Ideal
import Idealize.ShloMosaic.Lib.StableHlo.Predicate

noncomputable section

namespace Cert.Proof.Spec

open Idealize.ShloMosaic Idealize.ShloMosaic.StableHlo.Predicate

/-- The kernel's mask: 4096 query nodes by 50048 (padded) neighbour columns. -/
abbrev Mk : Shape := ⟨2, ![4096, 50048]⟩
/-- The kernel's widened, padded table: 50048 rows, 300 features and a column of ones. -/
abbrev Ek : Shape := ⟨2, ![50048, 301]⟩
/-- The reference's mask. -/
abbrev Mr : Shape := ⟨2, ![4096, 50000]⟩
/-- The embedding table. -/
abbrev Er : Shape := ⟨2, ![50000, 300]⟩
/-- The result: one mean embedding per query node. -/
abbrev Out : Shape := ⟨2, ![4096, 300]⟩

/-- The lower bound both programs put on a row's neighbour count (the f32 nearest to 1e-8). -/
def cEps : EReal := Ideal.ofBits .f32 0x322BCC77#32

/-- Row `b`, column `j` of the kernel's product: the mask row against the table column. -/
def kacc (mp : Mk.Idx → EReal) (ea : Ek.Idx → EReal) (b : Fin 4096) (j : Fin 301) : EReal :=
  ∑ u : Fin 50048, mp (ij b u) * ea (ij u j)

/-- The kernel's result: feature sums over the bounded neighbour count. -/
def kout (mp : Mk.Idx → EReal) (ea : Ek.Idx → EReal) : Out.Idx → EReal := fun i =>
  Ideal.div (kacc mp ea (i 0) ⟨(i 1).val, by have := (i 1).isLt; simp at this; omega⟩)
    (max cEps (kacc mp ea (i 0) ⟨300, by decide⟩))

/-- The reference's result: the row-normalized mask against the table. -/
def rout (S : Mr.Idx → EReal) (E : Er.Idx → EReal) : Out.Idx → EReal := fun i =>
  ∑ u : Fin 50000, Ideal.div (S (ij (i 0) u)) (max cEps (0 + ∑ u' : Fin 50000, S (ij (i 0) u'))) * E (ij u (i 1))

/-- A row index that is negative counts from the end, as jnp reads it: 4096 is added to it. -/
def wrapRow (r : BitVec 32) : BitVec 32 := if IntOp.cmpi .slt r 0#32 = 1#1 then r + 4096#32 else r

/-- Query node `b` has neighbour `u`: some pair of the edge list names row `b` (after the wrap) and column `u`. -/
def hit (rows cols : (⟨1, ![131072]⟩ : Shape).Idx → BitVec 32) (b : Fin 4096) (u : ℕ) : Prop :=
  ∃ n : Fin 131072, (wrapRow (rows (Shape.Idx.ofFin n))).toInt = (b.val : Int) ∧ (cols (Shape.Idx.ofFin n)).toInt = (u : Int)

end Cert.Proof.Spec

end
-- ==== Proof.KernelValue.lean ====
/-
  What the kernel's result array holds after the run, as a function of the two arrays the pallas_call reads.

  The grid is 2 row tiles by 17 column blocks, the column block innermost. At a point (bt, k) the body adds to a
  [2048 × 301] accumulator the product of the mask's block (rows 2048·bt …, columns 2944·k …) with the table's block
  (rows 2944·k …); the accumulator is zeroed first at k = 0, and at k = 16 the first 300 columns divided by the
  last one (bounded below by the constant) are written to the result's row tile bt. So the accumulator after point
  (bt, k) is the sum of the block products 0 … k of row tile bt, by induction along the run from its reset, and the
  result array is, row by row, the full product's feature columns over its bounded count column.
-/
import proofs.«428027_j14826227106018_2_alg».proof.Proof.Gen.KernelIdeal.Value
import proofs.«428027_j14826227106018_2_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz : (![0, 0] : Fin 2 → Nat) = fun _ => 0 := funext fun a => by fin_cases a <;> rfl

/-! ## What each control case leaves: the payloads of its covering stores -/

/-- A middle point (0 < k < 16) leaves in the accumulator what it held plus this point's block product. -/
theorem sB (c : Dev nD) (i : grid0.Coords) (a2 : Memref sig .tc .vmem S2048x2944 .bf16) (h2 : a2.IsWhole)
    (a3 : Memref sig .tc .vmem S2944x301 .bf16) (h3 : a3.IsWhole) (a4 : Memref sig .tc .vmem S2048x300 .f32) (h4 : a4.IsWhole)
    (a5 : Memref sig .tc .vmem S2048x301 .f32) (h5 : a5.IsWhole) (hc0 : ¬cond0_0 i) (hc1 : ¬cond0_1 i)
    (x0 : Vec F S2048x2944 .bf16) (x1 : Vec F S2944x301 .bf16) (xs0 : Vec F S2048x301 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S2048x2944) hz,
    View.ld_unit_zero (S := S2944x301) hz, View.ld_unit_zero (S := S2048x301) hz]

/-- The last point of a row tile (k = 16) leaves the same in the accumulator, -/
theorem sC (c : Dev nD) (i : grid0.Coords) (a2 : Memref sig .tc .vmem S2048x2944 .bf16) (h2 : a2.IsWhole)
    (a3 : Memref sig .tc .vmem S2944x301 .bf16) (h3 : a3.IsWhole) (a4 : Memref sig .tc .vmem S2048x300 .f32) (h4 : a4.IsWhole)
    (a5 : Memref sig .tc .vmem S2048x301 .f32) (h5 : a5.IsWhole) (hc0 : ¬cond0_0 i) (hc1 : cond0_1 i)
    (x0 : Vec F S2048x2944 .bf16) (x1 : Vec F S2944x301 .bf16) (xs0 : Vec F S2048x301 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S2048x2944) hz,
    View.ld_unit_zero (S := S2944x301) hz, View.ld_unit_zero (S := S2048x301) hz]

/-- and writes the quotient of that accumulator to the result's block. -/
theorem oC (c : Dev nD) (i : grid0.Coords) (a2 : Memref sig .tc .vmem S2048x2944 .bf16) (h2 : a2.IsWhole)
    (a3 : Memref sig .tc .vmem S2944x301 .bf16) (h3 : a3.IsWhole) (a4 : Memref sig .tc .vmem S2048x300 .f32) (h4 : a4.IsWhole)
    (a5 : Memref sig .tc .vmem S2048x301 .f32) (h5 : a5.IsWhole) (hc0 : ¬cond0_0 i) (hc1 : cond0_1 i)
    (x0 : Vec F S2048x2944 .bf16) (x1 : Vec F S2944x301 .bf16) (xs0 : Vec F S2048x301 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S2048x2944) hz,
    View.ld_unit_zero (S := S2944x301) hz, View.ld_unit_zero (S := S2048x301) hz, View.readCov_unit_zero (S := S2048x301) _ hz]

/-- The first point of a row tile (k = 0) zeroes the accumulator, reads the zeros back and adds its block product. -/
theorem sA (c : Dev nD) (i : grid0.Coords) (a2 : Memref sig .tc .vmem S2048x2944 .bf16) (h2 : a2.IsWhole)
    (a3 : Memref sig .tc .vmem S2944x301 .bf16) (h3 : a3.IsWhole) (a4 : Memref sig .tc .vmem S2048x300 .f32) (h4 : a4.IsWhole)
    (a5 : Memref sig .tc .vmem S2048x301 .f32) (h5 : a5.IsWhole) (hc0 : cond0_0 i) (hc1 : ¬cond0_1 i)
    (x0 : Vec F S2048x2944 .bf16) (x1 : Vec F S2944x301 .bf16) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x301) hz, View.readCov_unit_zero (S := S2048x301) _ hz]
  simp only [View.readAt_eq_ld, h2.read_unread, h3.read_unread, View.ld_unit_zero (S := S2048x2944) hz,
    View.ld_unit_zero (S := S2944x301) hz]

/-! ## The payloads at an index, over the extended reals -/

/-- The zero block. -/
theorem pay1_apply (y : S2048x301.Idx) : k0_pay1 (F := Ideal) y = 0 := by
  unfold k0_pay1
  simp only [shapeCast_self]
  show Ideal.ofBits .f32 0x00000000#32 = 0
  exact Ideal.ofBits_zero_f32

theorem lhs_0 (i : S2048x301.Idx) (q : dot_S2048x2944_S2944x301_S2048x301_1_0_0_1_n_n.contr.Idx) :
    (dot_S2048x2944_S2944x301_S2048x301_1_0_0_1_n_n.lhsIdx i q 0).val = (i 0).val := by
  unfold DotDims.lhsIdx
  rw [dif_neg (show ¬(0 : Fin S2048x2944.rank) ∈ dot_S2048x2944_S2944x301_S2048x301_1_0_0_1_n_n.lhsBatch by decide), dif_pos (show (0 : Fin S2048x2944.rank) ∈ dot_S2048x2944_S2944x301_S2048x301_1_0_0_1_n_n.lhsNonContracting by decide)]
  rfl
theorem lhs_1 (i : S2048x301.Idx) (q : dot_S2048x2944_S2944x301_S2048x301_1_0_0_1_n_n.contr.Idx) :
    (dot_S2048x2944_S2944x301_S2048x301_1_0_0_1_n_n.lhsIdx i q 1).val = (q ⟨0, by decide⟩).val :=
  dot_S2048x2944_S2944x301_S2048x301_1_0_0_1_n_n.lhsIdx_val_of_single rfl i q
theorem rhs_0 (i : S2048x301.Idx) (q : dot_S2048x2944_S2944x301_S2048x301_1_0_0_1_n_n.contr.Idx) :
    (dot_S2048x2944_S2944x301_S2048x301_1_0_0_1_n_n.rhsIdx i q 0).val = (q ⟨0, by decide⟩).val :=
  dot_S2048x2944_S2944x301_S2048x301_1_0_0_1_n_n.rhsIdx_val_of_single rfl i q
theorem rhs_1 (i : S2048x301.Idx) (q : dot_S2048x2944_S2944x301_S2048x301_1_0_0_1_n_n.contr.Idx) :
    (dot_S2048x2944_S2944x301_S2048x301_1_0_0_1_n_n.rhsIdx i q 1).val = (i 1).val := by
  unfold DotDims.rhsIdx
  rw [dif_neg (show ¬(1 : Fin S2944x301.rank) ∈ dot_S2048x2944_S2944x301_S2048x301_1_0_0_1_n_n.rhsBatch by decide), dif_pos (show (1 : Fin S2944x301.rank) ∈ dot_S2048x2944_S2944x301_S2048x301_1_0_0_1_n_n.rhsNonContracting by decide)]
  rfl

/-- The accumulating payload at row `r`, column `j`: what was there plus the block product's entry, a sum over the
    2944 columns of the mask block. -/
theorem pay2_apply (x0 : Vec Ideal S2048x2944 .bf16) (x1 : Vec Ideal S2944x301 .bf16) (acc : Vec Ideal S2048x301 .f32)
    (r : Fin 2048) (j : Fin 301) :
    k0_pay2 (F := Ideal) x0 x1 acc (ValueIdx.ix2 r j)
      = acc (ValueIdx.ix2 r j) + ∑ u : Fin 2944, x0 (ValueIdx.ix2 r u) * x1 (ValueIdx.ix2 u j) := by
  unfold k0_pay2
  simp only [shapeCast_self]
  rw [ValueIdx.addf_apply]
  congr 1
  refine (Ideal.matmul_constant_zero_apply (φ₁ := .bf16) (φ₂ := .bf16) dot_S2048x2944_S2944x301_S2048x301_1_0_0_1_n_n none x0 x1 (ValueIdx.ix2 r j)).trans ?_
  rw [← Equiv.sum_comp (ValueIdx.contrEquiv1 dot_S2048x2944_S2944x301_S2048x301_1_0_0_1_n_n 2944 rfl rfl).symm]
  refine Finset.sum_congr rfl fun k _ => ?_
  have hk := ValueIdx.contrEquiv1_symm_val dot_S2048x2944_S2944x301_S2048x301_1_0_0_1_n_n 2944 rfl rfl k
  have el : dot_S2048x2944_S2944x301_S2048x301_1_0_0_1_n_n.lhsIdx (ValueIdx.ix2 r j) ((ValueIdx.contrEquiv1 dot_S2048x2944_S2944x301_S2048x301_1_0_0_1_n_n 2944 rfl rfl).symm k) = ValueIdx.ix2 r k := funext fun a => Fin.ext (by
    match a with
    | ⟨0, _⟩ => exact lhs_0 _ _
    | ⟨1, _⟩ => exact (lhs_1 _ _).trans hk)
  have er : dot_S2048x2944_S2944x301_S2048x301_1_0_0_1_n_n.rhsIdx (ValueIdx.ix2 r j) ((ValueIdx.contrEquiv1 dot_S2048x2944_S2944x301_S2048x301_1_0_0_1_n_n 2944 rfl rfl).symm k) = ValueIdx.ix2 k j := funext fun a => Fin.ext (by
    match a with
    | ⟨0, _⟩ => exact (rhs_0 _ _).trans hk
    | ⟨1, _⟩ => exact rhs_1 _ _)
  rw [el, er]

/-- The quotient payload at row `r`, feature `d`: the accumulator's entry over its count column bounded below. -/
theorem pay3_apply (v : Vec Ideal S2048x301 .f32) (r : Fin 2048) (d : Fin 300) :
    k0_pay3 (F := Ideal) v (ValueIdx.ix2 r d)
      = Ideal.div (v (ValueIdx.ix2 r ⟨d.val, by have := d.isLt; omega⟩))
          (max Cert.Proof.Spec.cEps (v (ValueIdx.ix2 r ⟨300, by decide⟩))) := by
  unfold k0_pay3
  rw [ValueIdx.divf_apply]
  congr 1
  · exact extractStridedSlice_apply _ v _ _ _ (fun a => by match a with | ⟨0, _⟩ => simp | ⟨1, _⟩ => simp)
  · rw [broadcastTo_apply (s := S2048x1) (t := S2048x300) _ _ _ (ValueIdx.ix2 r (0 : Fin 1)) (fun a => by
      match a with
      | ⟨0, _⟩ => simp
      | ⟨1, _⟩ => simp)]
    rw [ValueIdx.maximumf_apply]
    congr 1
    exact extractStridedSlice_apply _ v _ _ _ (fun a => by match a with | ⟨0, _⟩ => simp | ⟨1, _⟩ => simp)

/-! ## The accumulator along a run of 17 points -/

section Run

variable (m : (ℓ : Loc nD τ sig) → Buf (Elt Ideal) ℓ)

/-- The mask's block at point `t`, at its literal shape. -/
abbrev mblk (c : Dev nD) (t : Fin cfg0.N) : Vec Ideal S2048x2944 .bf16 := iblk m c 0 t
/-- The table's block at point `t`, at its literal shape. -/
abbrev eblk (c : Dev nD) (t : Fin cfg0.N) : Vec Ideal S2944x301 .bf16 := iblk m c 1 t

/-- Point `n`'s block product at a position of the accumulator: the mask block's row against the table block's column
    (zero past the grid, where nothing reads it). -/
def prod (c : Dev nD) (n : ℕ) (y : S2048x301.Idx) : EReal :=
  if h : n < cfg0.N then
    ∑ u : Fin 2944, mblk m c ⟨n, h⟩ (ValueIdx.ix2 (n0 := 2048) (y 0) u) * eblk m c ⟨n, h⟩ (ValueIdx.ix2 (n1 := 301) u (y 1))
  else 0

/-- At the first point of a row tile the accumulator restarts: zero plus that point's product. -/
theorem step_first (c : Dev nD) (n : ℕ) (hb : n < cfg0.N) (h0 : n % 17 = 0) (acc : Vec Ideal S2048x301 .f32)
    (y : S2048x301.Idx) : Value.scAt0_0 m c n hb acc y = 0 + prod m c n y := by
  have h1 : ¬n % 17 = 16 := by omega
  unfold Value.scAt0_0
  rw [dif_pos h0, dif_neg h1, sA]
  obtain ⟨r, j, rfl⟩ : ∃ (r : Fin 2048) (j : Fin 301), y = ValueIdx.ix2 r j := ⟨y 0, y 1, ValueIdx.eq_ix2 y⟩
  rw [pay2_apply, pay1_apply]
  unfold prod
  rw [dif_pos hb]

/-- At every later point it grows by that point's product. -/
theorem step_next (c : Dev nD) (n : ℕ) (hb : n < cfg0.N) (h0 : ¬n % 17 = 0) (acc : Vec Ideal S2048x301 .f32)
    (y : S2048x301.Idx) : Value.scAt0_0 m c n hb acc y = acc y + prod m c n y := by
  obtain ⟨r, j, rfl⟩ : ∃ (r : Fin 2048) (j : Fin 301), y = ValueIdx.ix2 r j := ⟨y 0, y 1, ValueIdx.eq_ix2 y⟩
  unfold Value.scAt0_0
  rw [dif_neg h0]
  by_cases h1 : n % 17 = 16
  · rw [dif_pos h1, sC, pay2_apply]
    unfold prod
    rw [dif_pos hb]
  · rw [dif_neg h1, sB, pay2_apply]
    unfold prod
    rw [dif_pos hb]

/-- So after point `t` the accumulator holds the sum of the products of its row tile's points up to `t`. -/
theorem acc_eq (c : Dev nD) (t : Fin cfg0.N) (y : S2048x301.Idx) :
    (outsAt0 m c t.val t.isLt).2 y = 0 + ∑ s ∈ Finset.range (t.val % 17 + 1), prod m c (17 * (t.val / 17) + s) y := by
  rw [Value.soutsAt0_0_eq m c t]
  exact Pipeline.accAt_add_apply (fun n h => Value.scAt0_0 m c n h (VS0_0.read (Elt Ideal) VS0_0.junk)) (Value.scAt0_0 m c)
    (fun _ => 0) (prod m c) (17 * (t.val / 17)) 16
    (fun h i => step_first m c _ h (by omega) _ i)
    (fun n h acc i hlt hle => step_next m c n h (by omega) acc i)
    (t.val % 17) (by omega) _ y

end Run

end Cert.KernelIdeal.KValue

end
-- ==== Proof.BlockGeometry.lean ====
/-
  The geometry of the pipeline's blocks. The grid has 2 row tiles and 17 column blocks; point `t` is row tile `t / 17`
  and column block `t % 17`. The mask (4096 × 50048) is read in blocks of 2048 × 2944 at block index
  `(t / 17, t % 17)`; the table (50048 × 301) in blocks of 2944 × 301 at block index `(t % 17, 0)`; the result
  (4096 × 300) is written in blocks of 2048 × 300 at block index `(t / 17, 0)`, at the last column block of each row
  tile only. So entry `(r, u)` of a block is entry `(block row · height + r, block column · width + u)` of its array,
  and the two written blocks, rows 0–2047 and 2048–4095, cover the result.
-/
import proofs.«428027_j14826227106018_2_alg».proof.Proof.Gen.KernelIdeal.Value
import Idealize.ShloMosaic.Lib.Pipeline.Value
import Idealize.ShloMosaic.Lib.ValueIdx

set_option maxRecDepth 16384

noncomputable section

namespace Cert.KernelIdeal.BlockGeometry

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The mask's block index at point `t`: row tile `t / 17`, column block `t % 17`. -/
theorem idx0 : ∀ t : Fin cfg0.N, win0_0.index t 0 = t.val / 17 ∧ win0_0.index t 1 = t.val % 17 :=
  (by decide +kernel : ∀ t : Fin grid0.N, win0_0.index t 0 = t.val / 17 ∧ win0_0.index t 1 = t.val % 17)
/-- The table's block index at point `t`: row block `t % 17`, the one column block. -/
theorem idx1 : ∀ t : Fin cfg0.N, win0_1.index t 0 = t.val % 17 ∧ win0_1.index t 1 = 0 :=
  (by decide +kernel : ∀ t : Fin grid0.N, win0_1.index t 0 = t.val % 17 ∧ win0_1.index t 1 = 0)
/-- The result's block index at point `t`: row tile `t / 17`, the one column block. -/
theorem idx2 : ∀ t : Fin cfg0.N, win0_2.index t 0 = t.val / 17 ∧ win0_2.index t 1 = 0 :=
  (by decide +kernel : ∀ t : Fin grid0.N, win0_2.index t 0 = t.val / 17 ∧ win0_2.index t 1 = 0)

/-- Entry `(r, u)` of the mask's block at point `t` is entry `(2048 · (t / 17) + r, 2944 · (t % 17) + u)` of the mask. -/
theorem mblk_apply (c : Dev nD) (t : Fin cfg0.N) (r : Fin 2048) (u : Fin 2944) :
    (iblk m c 0 t : Vec F S2048x2944 .bf16) (ValueIdx.ix2 r u)
      = (V m c main_v16 : Vec F S4096x50048 .bf16) (ValueIdx.ix2 (⟨2048 * (t.val / 17) + r.val, by have := t.isLt; have : cfg0.N = 34 := N_0; have := r.isLt; omega⟩ : Fin 4096) (⟨2944 * (t.val % 17) + u.val, by have := u.isLt; omega⟩ : Fin 50048)) := by
  unfold iblk
  rw [View.read_apply]
  show V m c _ _ = V m c _ _
  congr 1
  funext a
  apply Fin.ext
  match a with
  | ⟨0, _⟩ =>
    show win0_0.index t 0 * 2048 + 1 * r.val = 2048 * (t.val / 17) + r.val
    rw [(idx0 t).1]; omega
  | ⟨1, _⟩ =>
    show win0_0.index t 1 * 2944 + 1 * u.val = 2944 * (t.val % 17) + u.val
    rw [(idx0 t).2]; omega

/-- Entry `(u, j)` of the table's block at point `t` is entry `(2944 · (t % 17) + u, j)` of the table. -/
theorem eblk_apply (c : Dev nD) (t : Fin cfg0.N) (u : Fin 2944) (j : Fin 301) :
    (iblk m c 1 t : Vec F S2944x301 .bf16) (ValueIdx.ix2 u j)
      = (V m c main_v20 : Vec F S50048x301 .bf16) (ValueIdx.ix2 (⟨2944 * (t.val % 17) + u.val, by have := u.isLt; omega⟩ : Fin 50048) j) := by
  unfold iblk
  rw [View.read_apply]
  show V m c _ _ = V m c _ _
  congr 1
  funext a
  apply Fin.ext
  match a with
  | ⟨0, _⟩ =>
    show win0_1.index t 0 * 2944 + 1 * u.val = 2944 * (t.val % 17) + u.val
    rw [(idx1 t).1]; omega
  | ⟨1, _⟩ =>
    show win0_1.index t 1 * 301 + 1 * j.val = j.val
    rw [(idx1 t).2]; omega

/-- What the result's block at point `t` reads of a function `G` on the whole result: entry `(r, d)` of the block is
    entry `(2048 · (t / 17) + r, d)` of `G`. -/
theorem oblk_read (c : Dev nD) (t : Fin cfg0.N) (G : Buf (Elt F) ((c : Thread nD τ).loc main_v21)) (r : Fin 2048) (d : Fin 300) :
    ((cfg0.win 2).blk t).view.read (Elt F) G (ValueIdx.ix2 r d)
      = (G : Vec F S4096x300 .f32) (ValueIdx.ix2 (⟨2048 * (t.val / 17) + r.val, by have := t.isLt; have : cfg0.N = 34 := N_0; have := r.isLt; omega⟩ : Fin 4096) d) := by
  rw [View.read_apply]
  show (G : Vec F S4096x300 .f32) _ = (G : Vec F S4096x300 .f32) _
  congr 1
  funext a
  apply Fin.ext
  match a with
  | ⟨0, _⟩ =>
    show win0_2.index t 0 * 2048 + 1 * r.val = 2048 * (t.val / 17) + r.val
    rw [(idx2 t).1]; omega
  | ⟨1, _⟩ =>
    show win0_2.index t 1 * 300 + 1 * d.val = d.val
    rw [(idx2 t).2]; omega

/-- Every entry of the result lies in a block that is written back: row `b` lies in the block of the last point of
    its row tile, `t = 17 · (b / 2048) + 16`, which holds rows `2048 · (b / 2048)` to `2048 · (b / 2048) + 2047`
    and all 300 columns. -/
theorem out_cover (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 34 := N_0
  have h0 : (i 0 : Nat) < 4096 := (i 0).isLt
  have h1 : (i 1 : Nat) < 300 := (i 1).isLt
  have ht : 17 * ((i 0 : Nat) / 2048) + 16 < cfg0.N := by omega
  refine ⟨⟨17 * ((i 0 : Nat) / 2048) + 16, ht⟩, (flush0_2 _).mpr (by show (17 * ((i 0 : Nat) / 2048) + 16) % 17 = 16; omega), ?_⟩
  show i ∈ ((View.whole main_v21).slice (win0_2.rect ⟨17 * ((i 0 : Nat) / 2048) + 16, ht⟩)).set
  rw [View.set_slice_whole, Rect.mem_set_unit]
  intro a
  match a with
  | ⟨0, _⟩ =>
    show win0_2.index ⟨17 * ((i 0 : Nat) / 2048) + 16, ht⟩ 0 * 2048 ≤ (i 0 : Nat)
      ∧ (i 0 : Nat) < win0_2.index ⟨17 * ((i 0 : Nat) / 2048) + 16, ht⟩ 0 * 2048 + 2048
    rw [(idx2 _).1]
    show (17 * ((i 0 : Nat) / 2048) + 16) / 17 * 2048 ≤ (i 0 : Nat) ∧ (i 0 : Nat) < (17 * ((i 0 : Nat) / 2048) + 16) / 17 * 2048 + 2048
    omega
  | ⟨1, _⟩ =>
    show win0_2.index ⟨17 * ((i 0 : Nat) / 2048) + 16, ht⟩ 1 * 300 ≤ (i 1 : Nat)
      ∧ (i 1 : Nat) < win0_2.index ⟨17 * ((i 0 : Nat) / 2048) + 16, ht⟩ 1 * 300 + 300
    rw [(idx2 _).2]
    omega

end Cert.KernelIdeal.BlockGeometry

end
-- ==== Proof.Algebra.lean ====
/-
  The algebra that joins the two programs, over the extended reals.

  Both results are the mean of the embeddings of a row's neighbours. The kernel sums the neighbours' embeddings first
  and divides once by the bounded neighbour count; the reference divides every mask entry by that count and sums
  afterwards. Every quantity met is a real number (the masks are 0 or 1, the table is real, the bound is a positive
  real), so the two agree by distributing the division over a finite sum of reals.
-/
import proofs.«428027_j14826227106018_2_alg».proof.Proof.Spec
import Idealize.ShloMosaic.PureOps.Ideal
import Mathlib.Data.EReal.Basic
import Mathlib.Data.EReal.Operations
import Mathlib.Algebra.BigOperators.Fin
import Mathlib.Algebra.BigOperators.Ring.Finset
import Mathlib.Logic.Equiv.Fin.Basic

noncomputable section

namespace Cert.Proof.Algebra

open Cert.Proof.Spec Idealize.ShloMosaic Idealize.ShloMosaic.StableHlo.Predicate

/-- The bound is the f32 number 11258999 · 2⁻⁵⁰ (sign 0, exponent field 100, fraction field 2870391), a positive real. -/
theorem cEps_pos : ∃ r : ℝ, 0 < r ∧ cEps = (r : EReal) := by
  refine ⟨(11258999 : ℝ) * (2 : ℝ) ^ (-50 : Int), by positivity, ?_⟩
  simp [cEps, Ideal.ofBits, Ideal.ieee, -EReal.coe_mul]

/-- 50048 = 17 · 2944: a sum over the padded columns is the sum over 17 blocks of 2944 columns. -/
theorem sum_blocks (f : Fin 50048 → EReal) :
    ∑ u : Fin 50048, f u = ∑ k : Fin 17, ∑ v : Fin 2944, f ⟨2944 * k.val + v.val, by have := k.isLt; have := v.isLt; omega⟩ := by
  rw [← Fintype.sum_prod_type']
  refine (Fintype.sum_equiv (finProdFinEquiv (m := 17) (n := 2944)) _ _ (fun p => ?_)).symm
  congr 1
  apply Fin.ext
  simp [finProdFinEquiv]
  omega

/-- The coercion from the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- 50048 = 50000 + 48: a sum over the padded columns whose last 48 terms vanish is the sum over the first 50000. -/
theorem sum_pad {M : Type*} [AddCommMonoid M] (g : Fin 50048 → M)
    (hg : ∀ u : Fin 50048, 50000 ≤ u.val → g u = 0) :
    ∑ u : Fin 50048, g u = ∑ u : Fin 50000, g ⟨u.val, by have := u.isLt; omega⟩ := by
  refine (Fin.sum_univ_add (a := 50000) (b := 48) g).trans ?_
  have h0 : ∑ i : Fin 48, g (Fin.natAdd 50000 i) = 0 :=
    Finset.sum_eq_zero (fun i _ => hg _ (by simp [Fin.natAdd]))
  rw [h0, add_zero]
  rfl

section

variable (P : Fin 4096 → ℕ → Prop)
  (mp : Mk.Idx → EReal) (ea : Ek.Idx → EReal) (S : Mr.Idx → EReal) (E : Er.Idx → EReal)

open Classical in
/-- A feature column of the kernel's product: the padding rows of the table are zero, so only the first 50000 columns
    count, and there the kernel's mask and table are the reference's. -/
theorem kacc_feat
    (hmp : ∀ (b : Fin 4096) (u : Fin 50048), mp (ij b u) = if P b u.val then 1 else 0)
    (hS : ∀ (b : Fin 4096) (u : Fin 50000), S (ij b u) = if P b u.val then 1 else 0)
    (hea : ∀ (u : Fin 50048) (j : Fin 301), ea (ij u j) =
      if hu : u.val < 50000 then (if hj : j.val < 300 then E (ij ⟨u.val, hu⟩ ⟨j.val, hj⟩) else 1) else 0)
    (b : Fin 4096) (d : Fin 300) :
    kacc mp ea b ⟨d.val, by have := d.isLt; omega⟩ = ∑ u : Fin 50000, S (ij b u) * E (ij u d) := by
  unfold kacc
  rw [sum_pad _ (fun u hu => by rw [hea, dif_neg (by omega), mul_zero])]
  refine Finset.sum_congr rfl (fun u _ => ?_)
  rw [hmp, hS, hea, dif_pos u.isLt, dif_pos d.isLt]

open Classical in
/-- The last column of the kernel's product: the table holds ones there, so it is the sum of the mask row. -/
theorem kacc_count
    (hmp : ∀ (b : Fin 4096) (u : Fin 50048), mp (ij b u) = if P b u.val then 1 else 0)
    (hS : ∀ (b : Fin 4096) (u : Fin 50000), S (ij b u) = if P b u.val then 1 else 0)
    (hea : ∀ (u : Fin 50048) (j : Fin 301), ea (ij u j) =
      if hu : u.val < 50000 then (if hj : j.val < 300 then E (ij ⟨u.val, hu⟩ ⟨j.val, hj⟩) else 1) else 0)
    (b : Fin 4096) :
    kacc mp ea b ⟨300, by decide⟩ = ∑ u : Fin 50000, S (ij b u) := by
  unfold kacc
  rw [sum_pad _ (fun u hu => by rw [hea, dif_neg (by omega), mul_zero])]
  refine Finset.sum_congr rfl (fun u _ => ?_)
  rw [hmp, hS, hea, dif_pos u.isLt, dif_neg (by simp), mul_one]

open Classical in
/-- One entry of the two results. With `s u ∈ {0, 1}` the mask row, `e u` the table column and `D > 0` the bounded
    count, all real: `(∑ u, s u * e u) * (1 / D) = ∑ u, s u * (1 / D) * e u`. -/
theorem bridge_at
    (hmp : ∀ (b : Fin 4096) (u : Fin 50048), mp (ij b u) = if P b u.val then 1 else 0)
    (hS : ∀ (b : Fin 4096) (u : Fin 50000), S (ij b u) = if P b u.val then 1 else 0)
    (hE : ∀ i : Er.Idx, ∃ r : ℝ, E i = (r : EReal))
    (hea : ∀ (u : Fin 50048) (j : Fin 301), ea (ij u j) =
      if hu : u.val < 50000 then (if hj : j.val < 300 then E (ij ⟨u.val, hu⟩ ⟨j.val, hj⟩) else 1) else 0)
    (b : Fin 4096) (d : Fin 300) :
    Ideal.div (kacc mp ea b ⟨d.val, by have := d.isLt; omega⟩) (max cEps (kacc mp ea b ⟨300, by decide⟩))
      = ∑ u : Fin 50000,
          Ideal.div (S (ij b u)) (max cEps (0 + ∑ u' : Fin 50000, S (ij b u'))) * E (ij u d) := by
  rw [kacc_feat P mp ea S E hmp hS hea b d, kacc_count P mp ea S E hmp hS hea b, zero_add]
  choose e he using hE
  obtain ⟨c, hc0, hc⟩ := cEps_pos
  have hSs : ∀ u : Fin 50000, S (ij b u) = (((if P b u.val then 1 else 0 : ℝ)) : EReal) := fun u => by
    rw [hS]; split_ifs <;> simp
  have hn : ∑ u : Fin 50000, S (ij b u) = ((∑ u : Fin 50000, (if P b u.val then 1 else 0 : ℝ) : ℝ) : EReal) := by
    rw [coe_sum]; exact Finset.sum_congr rfl (fun u _ => hSs u)
  have hD : max cEps (∑ u : Fin 50000, S (ij b u))
      = ((max c (∑ u : Fin 50000, (if P b u.val then 1 else 0 : ℝ)) : ℝ) : EReal) := by
    rw [hn, hc]; exact (EReal.coe_strictMono.monotone.map_max).symm
  have hDpos : 0 < max c (∑ u : Fin 50000, (if P b u.val then 1 else 0 : ℝ)) := lt_max_of_lt_left hc0
  rw [hD, Ideal.div_coe hDpos.ne']
  simp_rw [Ideal.div_coe hDpos.ne', hSs, he, ← EReal.coe_mul, ← coe_sum]
  rw [← EReal.coe_mul, Finset.sum_mul]
  exact congrArg _ (Finset.sum_congr rfl (fun u _ => by ring))

end

open Classical in
/-- The kernel's result is the reference's. -/
theorem bridge (P : Fin 4096 → ℕ → Prop) (hP : ∀ b u, P b u → u < 50000)
    (mp : Mk.Idx → EReal) (ea : Ek.Idx → EReal) (S : Mr.Idx → EReal) (E : Er.Idx → EReal)
    (hmp : ∀ (b : Fin 4096) (u : Fin 50048), mp (ij b u) = if P b u.val then 1 else 0)
    (hS : ∀ (b : Fin 4096) (u : Fin 50000), S (ij b u) = if P b u.val then 1 else 0)
    (hE : ∀ i : Er.Idx, ∃ r : ℝ, E i = (r : EReal))
    (hea : ∀ (u : Fin 50048) (j : Fin 301), ea (ij u j) =
      if hu : u.val < 50000 then (if hj : j.val < 300 then E (ij ⟨u.val, hu⟩ ⟨j.val, hj⟩) else 1) else 0) :
    kout mp ea = rout S E := by
  funext i
  obtain ⟨b, d, rfl⟩ : ∃ (b : Fin 4096) (d : Fin 300), i = ij b d := ⟨i 0, i 1, (ij_eta i).symm⟩
  exact bridge_at P mp ea S E hmp hS hE hea b d

end Cert.Proof.Algebra

end
-- ==== Proof.KernelRun.lean ====
/-
  The kernel's run read as a value: its result array ends at the full mask-by-table product's feature columns over its
  bounded count column, row by row.

  At the last point of row tile bt (k = 16) the accumulator holds the sum of all 17 block products of that tile; the
  blocks' columns 2944·k … 2944·k + 2943, k = 0 … 16, are the 50048 columns of the mask once each, so that sum is the
  full row-by-column product. That point writes the quotient to rows 2048·bt … of the result, and the two last points
  together cover every row.
-/
import proofs.«428027_j14826227106018_2_alg».proof.Proof.KernelValue
import proofs.«428027_j14826227106018_2_alg».proof.Proof.BlockGeometry
import proofs.«428027_j14826227106018_2_alg».proof.Proof.Algebra

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.KValue Cert.Proof.Spec
open Idealize.ShloMosaic.StableHlo.Predicate (ij)

variable (m : (ℓ : Loc nD τ sig) → Buf (Elt Ideal) ℓ) (ρ : Dev nD → PrngReg)

/-- The mask as the region finds it. -/
abbrev marr (c : Dev nD) : Vec Ideal S4096x50048 .bf16 := V m c main_v16
/-- The widened, padded table as the region finds it. -/
abbrev earr (c : Dev nD) : Vec Ideal S50048x301 .bf16 := V m c main_v20

/-- The two spellings of "row p, column q" agree. -/
theorem ij_eq_ix2 {n0 n1 : Nat} (a : Fin n0) (b : Fin n1) : ij a b = ValueIdx.ix2 a b :=
  funext fun x => by match x with | ⟨0, _⟩ => rfl | ⟨1, _⟩ => rfl

/-- After the last point of a row tile the accumulator's row `r`, column `j` is the full product's entry at the
    tile's row: the 17 blocks of 2944 columns are the 50048 columns. -/
theorem acc_last (c : Dev nD) (t : Fin cfg0.N) (ht : t.val % 17 = 16) (r : Fin 2048) (j : Fin 301) :
    (outsAt0 m c t.val t.isLt).2 (ValueIdx.ix2 r j)
      = kacc (marr m c) (earr m c) (⟨2048 * (t.val / 17) + r.val, by have := t.isLt; have : cfg0.N = 34 := N_0; have := r.isLt; omega⟩ : Fin 4096) j := by
  have hN : cfg0.N = 34 := N_0
  rw [acc_eq, zero_add, ht, Finset.sum_range]
  unfold kacc
  rw [Cert.Proof.Algebra.sum_blocks]
  refine Finset.sum_congr rfl fun s _ => ?_
  have hlt : 17 * (t.val / 17) + s.val < cfg0.N := by have := t.isLt; have := s.isLt; omega
  unfold prod
  rw [dif_pos hlt]
  refine Finset.sum_congr rfl fun u _ => ?_
  have hq : (17 * (t.val / 17) + s.val) / 17 = t.val / 17 := by have := s.isLt; omega
  have hr : (17 * (t.val / 17) + s.val) % 17 = s.val := by have := s.isLt; omega
  rw [ij_eq_ix2, ij_eq_ix2]
  refine congrArg₂ (· * ·) ?_ ?_
  · refine (Cert.KernelIdeal.BlockGeometry.mblk_apply m c ⟨_, hlt⟩ r u).trans ?_
    refine congrArg (marr m c) ?_
    refine congrArg₂ ValueIdx.ix2 (Fin.ext ?_) (Fin.ext ?_)
    · show 2048 * ((17 * (t.val / 17) + s.val) / 17) + r.val = 2048 * (t.val / 17) + r.val
      rw [hq]
    · show 2944 * ((17 * (t.val / 17) + s.val) % 17) + u.val = 2944 * s.val + u.val
      rw [hr]
  · refine (Cert.KernelIdeal.BlockGeometry.eblk_apply m c ⟨_, hlt⟩ u j).trans ?_
    refine congrArg (earr m c) ?_
    refine congrArg₂ ValueIdx.ix2 (Fin.ext ?_) rfl
    show 2944 * ((17 * (t.val / 17) + s.val) % 17) + u.val = 2944 * s.val + u.val
    rw [hr]

/-- What a last point writes back is the result function's block. -/
theorem flushed_eq (c : Dev nD) (t : Fin cfg0.N) (hf : (cfg0.win 2).flush t = true) :
    (dats m 0 c).flushed 2 t = ((cfg0.win 2).blk t).view.read (Elt Ideal) (kout (marr m c) (earr m c)) := by
  have hN : cfg0.N = 34 := N_0
  have ht : t.val % 17 = 16 := (flush0_2 t).mp hf
  have h0 : ¬t.val % 17 = 0 := by omega
  rw [Value.flushed2_C m c t h0 ht, oC]
  have e : k0_pay2 (F := Ideal) (iblk m c 0 t) (iblk m c 1 t) (outsAt0 m c (t.val - 1) (Nat.lt_of_le_of_lt (Nat.sub_le _ _) t.isLt)).2
      = (outsAt0 m c t.val t.isLt).2 := by
    rw [outsAt0_C m c t h0 ht]
    dsimp only
    rw [sC]
  rw [e]
  funext y
  obtain ⟨r, d, rfl⟩ : ∃ (r : Fin 2048) (d : Fin 300), y = ValueIdx.ix2 r d := ⟨y 0, y 1, ValueIdx.eq_ix2 y⟩
  refine Eq.trans ?_ (Cert.KernelIdeal.BlockGeometry.oblk_read (F := Ideal) c t (kout (marr m c) (earr m c)) r d).symm
  show k0_pay3 (F := Ideal) (outsAt0 m c t.val t.isLt).2 (ValueIdx.ix2 r d) = _
  rw [pay3_apply, acc_last m c t ht, acc_last m c t ht]
  rfl

/-- So the result array ends at that function. -/
theorem final (c : Dev nD) : (dats m 0 c).arrAt 2 cfg0.N = kout (marr m c) (earr m c) :=
  (dats m 0 c).arrAt_eq_of_cover 2 (kout (marr m c) (earr m c)) (flushed_eq m c) (Cert.KernelIdeal.BlockGeometry.out_cover c)

/-- The run, read: the result at the kernel's function of the two arrays the region reads, the arguments unchanged. -/
theorem run : θ_run defs (onTc (τ := τ) (main (F := Ideal))) ⟨m, fun _ => 0, ρ⟩ fun r => ∀ c : Dev nD,
      r.2.mem ((c : Thread nD τ).loc main_v21) = kout (marr m c) (earr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KRun

end
-- ==== Proof.ScatterSet.lean ====
/-
  A scatter whose body keeps the update and whose updates are all one value `v` is an indicator: the result holds `v`
  exactly at the positions some update lands on, and the operand elsewhere. The order of the updates does not matter,
  because every landing update writes the same value. For the two-dimensional point scatter `x.at[r, c].set(v)`
  (no window axes, both operand axes scattered, the index vector on axis 1 of an [N × 2] table) update `n` lands on
  position `(p, q)` exactly when row `n` of the table reads `(p, q)` as signed integers; a row reading a position outside
  the operand lands nowhere.
-/
import Idealize.ShloMosaic.PureOps
import Idealize.ShloMosaic.Lib.StableHlo.Predicate

namespace Cert.Proof.ScatterSet

open Idealize.ShloMosaic Idealize.ShloMosaic.StableHlo.Predicate

variable {α : Type}

open Classical in
/-- Folding "write `v` where the update lands" over any list of updates: position `i` ends at `v` when some listed update
    lands on it, and keeps the starting value otherwise. -/
theorem foldl_set_const {s si u : Shape} {w : Nat} (d : ScatterDims s si u) (idx : IVec si w) (v : α)
    (L : List (Fin u.numel)) (x : s.Idx → α) (i : s.Idx) :
    (L.foldl (fun r n =>
      match d.resultIdx? (u.rowMajor.symm n) idx with
      | some i₀ => fun i' => if i' = i₀ then v else r i'
      | none => r) x) i
    = if ∃ n ∈ L, d.resultIdx? (u.rowMajor.symm n) idx = some i then v else x i := by
  induction L generalizing x with
  | nil => simp
  | cons a L ih =>
    rw [List.foldl_cons, ih]
    by_cases hL : ∃ n ∈ L, d.resultIdx? (u.rowMajor.symm n) idx = some i
    · rw [if_pos hL, if_pos]
      obtain ⟨n, hn, h⟩ := hL
      exact ⟨n, List.mem_cons_of_mem _ hn, h⟩
    · rw [if_neg hL]
      cases ha : d.resultIdx? (u.rowMajor.symm a) idx with
      | none =>
        rw [if_neg]
        rintro ⟨n, hn, h⟩
        rcases List.mem_cons.1 hn with rfl | hn
        · rw [ha] at h; cases h
        · exact hL ⟨n, hn, h⟩
      | some i₀ =>
        by_cases hi : i = i₀
        · subst hi
          rw [if_pos ⟨a, List.mem_cons_self, ha⟩]
          simp
        · rw [if_neg]
          · simp [hi]
          · rintro ⟨n, hn, h⟩
            rcases List.mem_cons.1 hn with rfl | hn
            · rw [ha] at h; exact hi (Option.some.inj h).symm
            · exact hL ⟨n, hn, h⟩

open Classical in
/-- The scatter that sets: the result is `v` where some update lands and the operand elsewhere. -/
theorem scatter_set_const {s si u : Shape} {w : Nat} (d : ScatterDims s si u) (x : s.Idx → α) (idx : IVec si w) (v : α)
    (i : s.Idx) :
    Host.scatter d (fun _ b => b) x idx (fun _ => v) i
      = if ∃ j : u.Idx, d.resultIdx? j idx = some i then v else x i := by
  unfold Host.scatter
  refine (foldl_set_const d idx v (List.finRange u.numel) x i).trans ?_
  congr 1
  apply propext
  constructor
  · rintro ⟨n, _, h⟩; exact ⟨_, h⟩
  · rintro ⟨j, h⟩
    exact ⟨u.rowMajor j, List.mem_finRange _, by rw [Equiv.symm_apply_apply]; exact h⟩

end Cert.Proof.ScatterSet
-- ==== Proof.RefMask.lean ====
/-
  Where a two-dimensional point scatter lands, and the reference's mask.

  A scatter with no window axes whose two operand axes are both scattered, the index vector on axis 1 of an [N × 2]
  table, sends update `n` to the position whose coordinates are row `n` of the table read as signed integers, and
  drops it when that position is outside the operand. The reference builds its [4096 × 50000] mask by such a scatter of
  ones over zeros, the table's columns being the edge list's row indices (4096 added to a negative one) and column
  indices: the mask is the indicator of "some edge names this (row, column)".
-/
import proofs.«428027_j14826227106018_2_alg».proof.Proof.Gen.ReferenceIdeal.Read
import proofs.«428027_j14826227106018_2_alg».proof.Proof.Spec
import proofs.«428027_j14826227106018_2_alg».proof.Proof.ScatterSet
import Idealize.ShloMosaic.Lib.StableHlo.Predicate
import Idealize.ShloMosaic.Lib.Pipeline.Value
import Idealize.ShloMosaic.Lib.Affine

namespace Cert.Proof.RefMask

open Idealize.ShloMosaic Idealize.ShloMosaic.StableHlo.Predicate

/-- An update lands on position `i` exactly when, on every operand axis, the window's start plus the window coordinate
    is `i`'s coordinate: the range condition of the landing test is then `i`'s own. -/
theorem resultIdx?_eq_some_iff {s si u : Shape} {w : ℕ} (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      exact (Int.toNat_of_nonneg (h a).1).symm
    · intro e
      funext a
      apply Fin.ext
      show (d.start j idx a + d.window j a).toNat = (i a).val
      rw [e a]; exact Int.toNat_natCast _
  · rename_i h
    constructor
    · intro e; cases e
    · intro e
      exact absurd (fun a => by rw [e a]; exact ⟨Int.natCast_nonneg _, by exact_mod_cast (i a).isLt⟩) h

theorem point_resultIdx? {A B N w : ℕ} (wf : ScatterDims.WF (⟨2, ![A, B]⟩ : Shape) ⟨2, ![N, 2]⟩ ⟨1, ![N]⟩ [] [0, 1] [0, 1] 1)
    (idx : IVec (⟨2, ![N, 2]⟩ : Shape) w) (j : (⟨1, ![N]⟩ : Shape).Idx) (i : (⟨2, ![A, B]⟩ : Shape).Idx) :
    ({ updateWindowDims := [], insertedWindowDims := [0, 1], scatterDimsToOperandDims := [0, 1], indexVectorDim := 1, wf := wf } :
        ScatterDims (⟨2, ![A, B]⟩ : Shape) ⟨2, ![N, 2]⟩ ⟨1, ![N]⟩).resultIdx? j idx = some i
      ↔ (idx (ij (j 0) (0 : Fin 2))).toInt = ((i 0).val : Int) ∧ (idx (ij (j 0) (1 : Fin 2))).toInt = ((i 1).val : Int) := by
  have e : ∀ X : Fin 1, (j X).val = (j 0).val := fun X => by rw [Subsingleton.elim X 0]
  -- no operand axis is kept (both are inserted window axes): the window coordinate is 0 on both
  have hw : ∀ a : Fin 2, ScatterDims.window (⟨[], [0, 1], [0, 1], 1, wf⟩ : ScatterDims (⟨2, ![A, B]⟩ : Shape) ⟨2, ![N, 2]⟩ ⟨1, ![N]⟩) j a = 0 := by
    intro a
    unfold ScatterDims.window
    exact dif_neg (show a ∉ (List.finRange 2).filter (fun x => x ∉ ([0, 1] : List (Fin 2))) by revert a; decide)
  -- operand axis `a` starts at column `a` of the update's row of the index table, read signed
  have hs : ∀ a : Fin 2, ScatterDims.start (⟨[], [0, 1], [0, 1], 1, wf⟩ : ScatterDims (⟨2, ![A, B]⟩ : Shape) ⟨2, ![N, 2]⟩ ⟨1, ![N]⟩) j idx a
      = (idx (ij (j 0) a)).toInt := by
    intro a
    unfold ScatterDims.start
    rw [dif_pos (show a ∈ ([0, 1] : List (Fin 2)) by revert a; decide)]
    refine congrArg (fun t => (idx t).toInt) ?_
    funext b
    match b with
    | ⟨0, _⟩ =>
      unfold ScatterDims.siIdx
      rw [dif_neg (show ¬ (0 : ℕ) = 1 by decide)]
      unfold ScatterDims.siCoord
      apply Fin.ext
      simp only [Fin.val_cast]
      exact e _
    | ⟨1, _⟩ =>
      unfold ScatterDims.siIdx
      rw [dif_pos rfl]
      apply Fin.ext
      show List.idxOf a [0, 1] = a.val
      revert a; decide
  rw [resultIdx?_eq_some_iff, Fin.forall_fin_two, hs, hs, hw, hw]
  simp

/-! ## The reference's mask -/

open Cert.ReferenceIdeal Cert.ReferenceIdeal.Read Cert.Proof.Spec

/-- The f32 pattern `0x3F800000` is the number one: sign clear, biased exponent 127, fraction 0. -/
theorem one_f32 : Ideal.ofBits .f32 0x3F800000#32 = 1 := by
  simp [Ideal.ofBits, Ideal.ieee, -EReal.coe_mul] <;> norm_num

/-- Every update is the number one. -/
theorem v14_const [Cert.ReferenceIdeal.Facts] : Read.val_main_v14 (F := Ideal) = fun _ => (1 : EReal) := by
  funext i
  rw [val_main_v14_apply, val_main_cst_3_apply]
  exact one_f32

/-- The operand is zero everywhere. -/
theorem v0_const [Cert.ReferenceIdeal.Facts] (i : S4096x50000.Idx) : Read.val_main_v0 (F := Ideal) i = (0 : EReal) := by
  rw [val_main_v0_apply, val_main_cst_apply]
  exact Ideal.ofBits_zero_f32

/-- Column 0 of the index table: the edge's row index, 4096 added to a negative one. -/
theorem col0 [Cert.ReferenceIdeal.Facts] (x0 x1 : (⟨S131072, .i32⟩ : BufTy).Contents (Elt Ideal)) (n : Fin 131072) :
    Read.val_main_v13 (F := Ideal) x0 x1 (ij n (0 : Fin 2)) = wrapRow (x0 (Shape.Idx.ofFin n)) := by
  unfold Read.val_main_v13
  rw [concatenate_pair_apply_left (t := S131072x2) (s₁ := S131072x1) (s₂ := S131072x1) (1 : Fin 2) _ _ _ (ij n (0 : Fin 2)) rfl (ixP n)
    (fun b => match b with | ⟨0, _⟩ => rfl | ⟨1, _⟩ => rfl)]
  have hi : idx_main_v11 (ixP n) = Shape.Idx.ofFin n := by
    funext a; match a with | ⟨0, _⟩ => rfl
  rw [val_main_v11_apply, hi, val_main_v5_apply, val_main_v2_apply, val_main_v4_apply, val_main_v1_apply, val_main_v3_apply,
    val_main_c_apply, val_main_c_0_apply]
  rfl

/-- Column 1 of the index table: the edge's column index itself, when it is not negative. -/
theorem col1 [Cert.ReferenceIdeal.Facts] (x0 x1 : (⟨S131072, .i32⟩ : BufTy).Contents (Elt Ideal))
    (hcol : ∀ n, 0 ≤ (x1 n).toInt) (n : Fin 131072) :
    Read.val_main_v13 (F := Ideal) x0 x1 (ij n (1 : Fin 2)) = x1 (Shape.Idx.ofFin n) := by
  unfold Read.val_main_v13
  rw [concatenate_pair_apply_right (t := S131072x2) (s₁ := S131072x1) (s₂ := S131072x1) (1 : Fin 2) _ _ _ (ij n (1 : Fin 2)) rfl rfl (ixP n)
    (fun b => match b with | ⟨0, _⟩ => fun _ => rfl | ⟨1, _⟩ => fun h => absurd rfl h) rfl]
  have hi : idx_main_v12 (ixP n) = Shape.Idx.ofFin n := by
    funext a; match a with | ⟨0, _⟩ => rfl
  rw [val_main_v12_apply, hi, val_main_v10_apply, val_main_v7_apply, val_main_v6_apply, val_main_c_1_apply]
  have hneg : ¬ IntOp.cmpi .slt (x1 (Shape.Idx.ofFin n)) 0#32 = 1#1 := by
    rw [IntOp.cmpi_slt]
    have := hcol (Shape.Idx.ofFin n)
    simp only [BitVec.toInt_zero]
    omega
  exact if_neg hneg

open Classical in
/-- The reference's mask is the indicator of "some edge names this (row, column)": the scatter writes the number one
    wherever an edge lands, over zeros. -/
theorem ref_mask [Cert.ReferenceIdeal.Facts] (x0 x1 : (⟨S131072, .i32⟩ : BufTy).Contents (Elt Ideal))
    (hcol : ∀ n, 0 ≤ (x1 n).toInt ∧ (x1 n).toInt < 50000) (b : Fin 4096) (u : Fin 50000) :
    Read.val_main_v15 (F := Ideal) x0 x1 (ij b u) = if hit x0 x1 b u.val then (1 : EReal) else 0 := by
  unfold Read.val_main_v15
  rw [v14_const, ScatterSet.scatter_set_const, v0_const]
  refine if_congr ?_ rfl rfl
  unfold scatter_S4096x50000_S131072x2_S131072_n_01_01_1
  constructor
  · rintro ⟨j, hj⟩
    rw [point_resultIdx?] at hj
    rw [col0 x0 x1 (j 0), col1 x0 x1 (fun n => (hcol n).1) (j 0)] at hj
    exact ⟨j 0, hj⟩
  · rintro ⟨n, hn⟩
    refine ⟨Shape.Idx.ofFin n, (point_resultIdx? _ _ _ _).2 ?_⟩
    show (Read.val_main_v13 (F := Ideal) x0 x1 (ij n (0 : Fin 2))).toInt = _
      ∧ (Read.val_main_v13 (F := Ideal) x0 x1 (ij n (1 : Fin 2))).toInt = _
    rw [col0 x0 x1 n, col1 x0 x1 (fun n => (hcol n).1) n]
    exact hn

end Cert.Proof.RefMask
-- ==== Proof.KernelHost.lean ====
/-
  What the two arrays the kernel region reads hold, as the host operations before it leave them.

  The mask (4096 x 50048): zeros, with a one scattered at (row, column) for every pair of the edge list, the row index
  counted from the end when negative and the column index clamped to [0, 49999]. Under the precondition that every
  column index is already in [0, 50000) the clamp and the wrap of the column are the identity, so entry (b, u) is one
  exactly when some pair names row b (after the wrap) and column u.

  The table (50048 x 301): the embedding table (its change of format the identity over the extended reals), a column
  of ones appended, and 48 rows of zeros below.
-/
import proofs.«428027_j14826227106018_2_alg».proof.Proof.Gen.KernelIdeal.Frame
import proofs.«428027_j14826227106018_2_alg».proof.Proof.Spec
import proofs.«428027_j14826227106018_2_alg».proof.Proof.ScatterSet
import proofs.«428027_j14826227106018_2_alg».proof.Proof.RefMask
import Idealize.ShloMosaic.Lib.StableHlo.Predicate
import Idealize.ShloMosaic.Lib.Pipeline.Value
import Idealize.ShloMosaic.Lib.StableHlo.Run
import Idealize.ShloMosaic.Lib.Affine
import Idealize.ShloMosaic.Lib.KernelVsHost
import Idealize.ShloMosaic.Lib.IdealHost

noncomputable section

namespace Cert.Proof.KernelHost

open Idealize.ShloMosaic Idealize.ShloMosaic.TcCoe Idealize.SL.Sem
open Idealize.ShloMosaic.StableHlo Idealize.ShloMosaic.StableHlo.Predicate
open Cert.KernelIdeal Cert.KernelIdeal.Gen

variable [Cert.KernelIdeal.Facts]
variable (m : (ℓ : Loc nD τ sig) → Buf (Elt Ideal) ℓ) (c : Dev nD)

/-! ## The table -/

/-- The padded table as the term the host operations build: the table, a column of ones beside it, zero rows below. -/
theorem table_term :
    (V m c main_v20 : S50048x301.Idx → EReal)
      = pad S50048x301 ![0, 0] ![48, 0] ![0, 0]
          (concatenate S50000x301 1
            [⟨S50000x300, truncf .bf16 (m ((c : Thread nD τ).loc main_arg2)) Facts₀.bitsLt_bf16_f32⟩,
              ⟨S50000x1, broadcastInDim S50000x1 ![] Facts₀.bcast_S_S50000x1 (constant (F := Ideal) S_ .bf16 0x3F80#16)⟩]
            Facts₀.concatenates_S50000x300_S50000x1_S50000x301_d1)
          (sitofp (F := Ideal) .bf16 (constantI S_ 32 0#32)) Facts₀.pads_S50000x301_S50048x301_0480_000 Facts₀.h_S_ := by
  dsimp only [Gen.V]
  simp only [Gen.hostOps0, Gen.hostOps0_1, Gen.hostOps0_2, Gen.hostOps0_3, List.flatten_cons, List.flatten_nil, List.append_nil,
    List.cons_append, List.nil_append]
  after_results
  rfl

/-- The widened table (50000 x 301) at a row and a feature column: the table's entry. -/
theorem widened_left (x : S50000x300.Idx → EReal) (o : S50000x1.Idx → EReal) (p : Fin 50000) (j : Fin 301) (hj : j.val < 300) :
    concatenate S50000x301 1 [⟨S50000x300, x⟩, ⟨S50000x1, o⟩] Facts₀.concatenates_S50000x300_S50000x1_S50000x301_d1 (ij p j)
      = x (ij p ⟨j.val, hj⟩) := by
  refine concatenate_pair_apply_left (1 : Fin 2) x o _ (ij p j) rfl (ij p ⟨j.val, hj⟩) ?_
  intro b
  fin_cases b <;> rfl

/-- The widened table at a row and the last column: the appended column's entry. -/
theorem widened_right (x : S50000x300.Idx → EReal) (o : S50000x1.Idx → EReal) (p : Fin 50000) (j : Fin 301) (hj : ¬ j.val < 300) :
    concatenate S50000x301 1 [⟨S50000x300, x⟩, ⟨S50000x1, o⟩] Facts₀.concatenates_S50000x300_S50000x1_S50000x301_d1 (ij p j)
      = o (ixP p) := by
  have hj' : j.val = 300 := by have := j.isLt; omega
  refine concatenate_pair_apply_right (1 : Fin 2) x o _ (ij p j) rfl rfl (ixP p) ?_ ?_
  · intro b hb
    fin_cases b
    · rfl
    · exact absurd rfl hb
  · show (0 : ℕ) + 300 = j.val
    omega

/-- The table the kernel reads: the embedding table in its first 50000 rows and 300 columns, ones in column 300 of those
    rows, zeros in the 48 rows below. -/
theorem table_eq (u : Fin 50048) (j : Fin 301) :
    @Eq EReal (V m c main_v20 (ij u j))
      (if hu : u.val < 50000 then
        (if hj : j.val < 300 then m ((c : Thread nD τ).loc main_arg2) (ij ⟨u.val, hu⟩ ⟨j.val, hj⟩) else 1)
      else 0) := by
  show (V m c main_v20 : S50048x301.Idx → EReal) (ij u j) = _
  rw [table_term]
  by_cases hu : u.val < 50000
  · rw [dif_pos hu]
    rw [pad_apply_of_inside (s := S50000x301) (t := S50048x301) (![0, 0]) (![48, 0]) (![0, 0]) _ _ Facts₀.pads_S50000x301_S50048x301_0480_000 Facts₀.h_S_ (ij u j)
      (ij (⟨u.val, hu⟩ : Fin 50000) j) (by intro a; fin_cases a <;> simp)]
    by_cases hj : j.val < 300
    · rw [dif_pos hj, widened_left _ _ _ _ hj]
      rfl
    · rw [dif_neg hj, widened_right _ _ _ _ hj, bcast_scalar _ Facts₀.h_S_]
      show Ideal.ofBits .bf16 0x3F80#16 = 1
      exact Ideal.ofBits_one_bf16
  · rw [dif_neg hu]
    rw [pad_apply_of_not_inside (s := S50000x301) (t := S50048x301) (![0, 0]) (![48, 0]) (![0, 0]) _ _ Facts₀.pads_S50000x301_S50048x301_0480_000 Facts₀.h_S_ (ij u j) (0 : Fin 2)
      (by show ¬(0 ≤ u.val ∧ (u.val - 0) % (0 + 1) = 0 ∧ (u.val - 0) / (0 + 1) < 50000); omega)]
    show (((0#32 : BitVec 32).toInt : ℝ) : EReal) = 0
    simp

/-! ## The mask -/

/-- The row index of every pair as the host operations leave it: counted from the end when negative. -/
def rowIdx (a0 : S131072.Idx → BitVec 32) : S131072.Idx → BitVec 32 :=
  select (cmpi .slt a0 (broadcastInDim S131072 ![] Facts₀.bcast_S_S131072 (constantI S_ 32 0#32)))
    (addi a0 (broadcastInDim S131072 ![] Facts₀.bcast_S_S131072 (constantI S_ 32 4096#32))) a0

/-- The column index of every pair clamped to [0, 49999]. -/
def clampIdx (a1 : S131072.Idx → BitVec 32) : S131072.Idx → BitVec 32 :=
  minsi (broadcastInDim S131072 ![] Facts₀.bcast_S_S131072 (constantI S_ 32 49999#32))
    (maxsi (broadcastInDim S131072 ![] Facts₀.bcast_S_S131072 (constantI S_ 32 0#32)) a1)

/-- The clamped column index, counted from the end of the padded axis when negative. -/
def colIdx (a1 : S131072.Idx → BitVec 32) : S131072.Idx → BitVec 32 :=
  select (cmpi .slt (clampIdx a1) (broadcastInDim S131072 ![] Facts₀.bcast_S_S131072 (constantI S_ 32 0#32)))
    (addi (clampIdx a1) (broadcastInDim S131072 ![] Facts₀.bcast_S_S131072 (constantI S_ 32 50048#32))) (clampIdx a1)

/-- The [131072 x 2] table of scatter positions: the row indices beside the column indices. -/
def pairIdx (a0 a1 : S131072.Idx → BitVec 32) : S131072x2.Idx → BitVec 32 :=
  concatenate S131072x2 1
    [⟨S131072x1, broadcastInDim S131072x1 ![0] Facts₀.bcast_S131072_S131072x1_0 (rowIdx a0)⟩,
      ⟨S131072x1, broadcastInDim S131072x1 ![0] Facts₀.bcast_S131072_S131072x1_0 (colIdx a1)⟩]
    Facts₀.concatenates_S131072x1_S131072x1_S131072x2_d1

set_option maxHeartbeats 4000000 in
/-- The mask as the term the host operations build: ones scattered into zeros at the pairs' positions. -/
theorem mask_term :
    (V m c main_v16 : S4096x50048.Idx → EReal)
      = Host.scatter scatter_S4096x50048_S131072x2_S131072_n_01_01_1 (fun _ b => b)
          (broadcastInDim S4096x50048 ![] Facts₀.bcast_S_S4096x50048 (constant (F := Ideal) S_ .bf16 0x0000#16))
          (pairIdx (m ((c : Thread nD τ).loc main_arg0)) (m ((c : Thread nD τ).loc main_arg1)))
          (broadcastInDim S131072 ![] Facts₀.bcast_S_S131072 (constant (F := Ideal) S_ .bf16 0x3F80#16)) := by
  dsimp only [Gen.V]
  simp only [Gen.hostOps0, Gen.hostOps0_1, Gen.hostOps0_2, Gen.hostOps0_3, List.flatten_cons, List.flatten_nil, List.append_nil,
    List.cons_append, List.nil_append]
  after_results
  rfl

/-- The clamp of a word to [0, 49999] — the larger of 0 and the word, then the smaller of 49999 and that — is the word
    when it is already there. -/
theorem clamp_id (w : BitVec 32) (h0 : 0 ≤ w.toInt) (h1 : w.toInt < 50000) :
    IntOp.minsi 49999#32 (IntOp.maxsi 0#32 w) = w := by
  have h00 : (0#32 : BitVec 32).toInt = 0 := by decide
  have h49 : (49999#32 : BitVec 32).toInt = 49999 := by decide
  have hmax : IntOp.maxsi 0#32 w = w := by
    unfold IntOp.maxsi
    rw [if_neg]
    rw [BitVec.slt_iff_toInt_lt, h00]
    omega
  rw [hmax]
  unfold IntOp.minsi
  rw [if_neg]
  rw [BitVec.slt_iff_toInt_lt, h49]
  omega

/-- Column 0 of the table of positions: the pair's row index, 4096 added to a negative one. -/
theorem pairIdx_row (a0 a1 : S131072.Idx → BitVec 32) (n : Fin 131072) :
    pairIdx a0 a1 (ij n (0 : Fin 2)) = Spec.wrapRow (a0 (Shape.Idx.ofFin n)) := by
  unfold pairIdx
  rw [concatenate_pair_apply_left (t := S131072x2) (s₁ := S131072x1) (s₂ := S131072x1) (1 : Fin 2) _ _ _ (ij n (0 : Fin 2)) rfl (ixP n)
    (fun b => match b with | ⟨0, _⟩ => rfl | ⟨1, _⟩ => rfl)]
  rw [bcast_col1]
  rfl

/-- Column 1 of the table of positions: the pair's column index itself, when it is in [0, 50000). -/
theorem pairIdx_col (a0 a1 : S131072.Idx → BitVec 32) (hcol : ∀ n, 0 ≤ (a1 n).toInt ∧ (a1 n).toInt < 50000) (n : Fin 131072) :
    pairIdx a0 a1 (ij n (1 : Fin 2)) = a1 (Shape.Idx.ofFin n) := by
  unfold pairIdx
  rw [concatenate_pair_apply_right (t := S131072x2) (s₁ := S131072x1) (s₂ := S131072x1) (1 : Fin 2) _ _ _ (ij n (1 : Fin 2)) rfl rfl (ixP n)
    (fun b => match b with | ⟨0, _⟩ => fun _ => rfl | ⟨1, _⟩ => fun h => absurd rfl h) rfl]
  rw [bcast_col1]
  have hc : clampIdx a1 (Shape.Idx.ofFin n) = a1 (Shape.Idx.ofFin n) :=
    clamp_id _ (hcol _).1 (hcol _).2
  show Scalar.select (IntOp.cmpi .slt (clampIdx a1 (Shape.Idx.ofFin n)) 0#32)
      (IntOp.addi (clampIdx a1 (Shape.Idx.ofFin n)) 50048#32) (clampIdx a1 (Shape.Idx.ofFin n)) = _
  rw [hc]
  have hneg : ¬ IntOp.cmpi .slt (a1 (Shape.Idx.ofFin n)) 0#32 = 1#1 := by
    rw [IntOp.cmpi_slt]
    have := (hcol (Shape.Idx.ofFin n)).1
    simp only [BitVec.toInt_zero]
    omega
  exact if_neg hneg

open Classical in
/-- The mask the kernel reads is the indicator of "some pair names this (row, column)": the scatter writes the number
    one wherever a pair lands, over zeros. -/
theorem mask_eq
    (hcol : ∀ n, 0 ≤ ((m ((c : Thread nD τ).loc main_arg1) : S131072.Idx → BitVec 32) n).toInt
      ∧ ((m ((c : Thread nD τ).loc main_arg1) : S131072.Idx → BitVec 32) n).toInt < 50000)
    (b : Fin 4096) (u : Fin 50048) :
    @Eq EReal (V m c main_v16 (ij b u))
      (if Spec.hit (m ((c : Thread nD τ).loc main_arg0)) (m ((c : Thread nD τ).loc main_arg1)) b u.val then 1 else 0) := by
  show (V m c main_v16 : S4096x50048.Idx → EReal) (ij b u) = _
  rw [mask_term]
  have hones : broadcastInDim S131072 ![] Facts₀.bcast_S_S131072 (constant (F := Ideal) S_ .bf16 0x3F80#16)
      = fun _ => (1 : EReal) := by
    funext k
    rw [bcast_scalar _ Facts₀.h_S_]
    exact Ideal.ofBits_one_bf16
  rw [hones, ScatterSet.scatter_set_const, bcast_scalar _ Facts₀.h_S_]
  rw [show constant (F := Ideal) S_ .bf16 0x0000#16 (Shape.Idx.first Facts₀.h_S_) = (0 : EReal) from Ideal.ofBits_zero_bf16]
  refine if_congr ?_ rfl rfl
  unfold scatter_S4096x50048_S131072x2_S131072_n_01_01_1
  constructor
  · rintro ⟨j, hj⟩
    rw [RefMask.point_resultIdx?] at hj
    rw [pairIdx_row _ _ (j 0), pairIdx_col _ _ hcol (j 0)] at hj
    exact ⟨j 0, hj⟩
  · rintro ⟨n, hn⟩
    refine ⟨Shape.Idx.ofFin n, (RefMask.point_resultIdx? _ _ _ _).2 ?_⟩
    show (pairIdx _ _ (ij n (0 : Fin 2))).toInt = _ ∧ (pairIdx _ _ (ij n (1 : Fin 2))).toInt = _
    rw [pairIdx_row _ _ n, pairIdx_col _ _ hcol n]
    exact hn

end Cert.Proof.KernelHost

end
-- ==== Proof.RefValue.lean ====
/-
  The reference's result as a closed expression.

  The reference sums each row of its mask, starting from 0, bounds the sum below by the constant `cEps`, divides every
  mask entry of the row by that bounded sum and multiplies the normalized mask with the embedding table. Read at an
  output index `(b, d)` the result is therefore
  `∑ u, (mask (b, u) / max cEps (0 + ∑ u', mask (b, u'))) * table (u, d)`,
  which is `rout` of the mask and the table. The proof reads the reference one operation at a time at an index; the
  index functions the layout operations compose reduce to the pair `(b, u)` resp. `(u, d)`.
-/
import proofs.«428027_j14826227106018_2_alg».proof.Proof.Gen.ReferenceIdeal.Read
import proofs.«428027_j14826227106018_2_alg».proof.Proof.Spec
import Idealize.ShloMosaic.PureOps.Ideal.Laws
import Idealize.ShloMosaic.Lib.StableHlo.Predicate

namespace Cert.Proof.RefValue

open Idealize.ShloMosaic Idealize.SL.Sem
open Cert.ReferenceIdeal Cert.ReferenceIdeal.Read Cert.Proof.Spec Idealize.ShloMosaic.StableHlo.Predicate

/-- The left operand of the product at output index `i`, contraction index `k`, is read at row `i 0`, column `k`. -/
theorem lidx_eq (i : S4096x300.Idx) (k : Fin 50000) : lidx_main_v21 i k = (ij (i 0) k : S4096x50000.Idx) :=
  funext fun a => Fin.ext (by match a with | ⟨0, _⟩ => rfl | ⟨1, _⟩ => rfl)

/-- The right operand is read at row `k`, column `i 1`. -/
theorem ridx_eq (i : S4096x300.Idx) (k : Fin 50000) : ridx_main_v21 i k = (ij k (i 1) : S50000x300.Idx) :=
  funext fun a => Fin.ext (by match a with | ⟨0, _⟩ => rfl | ⟨1, _⟩ => rfl)

/-- The row sum that normalizes the entry at `(i 0, k)` runs over the entries `(i 0, k')` of the same row. -/
theorem rowidx_eq (i : S4096x300.Idx) (k k' : Fin 50000) :
    idx_main_v16 (idx_main_v17 (idx_main_v19 (ij (i 0) k : S4096x50000.Idx))) k' = (ij (i 0) k' : S4096x50000.Idx) :=
  funext fun a => Fin.ext (by match a with | ⟨0, _⟩ => rfl | ⟨1, _⟩ => rfl)

theorem ref_value [Cert.ReferenceIdeal.Facts] (x0 x1 : (⟨S131072, .i32⟩ : BufTy).Contents (Elt Ideal)) (x2 : (⟨S50000x300, .f32⟩ : BufTy).Contents (Elt Ideal)) :
    Read.val_main_v21 (F := Ideal) x0 x1 x2 = rout (Read.val_main_v15 (F := Ideal) x0 x1) x2 := by
  funext i
  unfold rout cEps
  rw [val_main_v21_apply]
  refine Finset.sum_congr rfl fun k _ => ?_
  rw [lidx_eq, ridx_eq, val_main_v20_apply, Ideal.hostDivf_def, val_main_v19_apply, val_main_v18_apply,
    Ideal.maximumf_def, val_main_call0_v1_apply, val_main_call0_v0_apply, val_main_cst_5_apply, val_main_v17_apply,
    val_main_v16_apply, val_main_cst_4_apply]
  simp only [Ideal.ofBits_def, Ideal.ofBits_zero_f32, rowidx_eq]

end Cert.Proof.RefValue
-- ==== Proof.PreDecode.lean ====
/-
  The precondition read back.

  The precondition function is a conjunction of three reductions by `and`: every entry of the table has absolute value
  below `+∞`, every column index is at least 0, every column index is below 50000. When its one result word is 1,
  every conjunct is 1 (an `and` of two `i1` words is 1 only when both are), every element under a reduction by `and`
  that came out 1 is 1, and a comparison word that is 1 says the comparison holds. At the extended reals
  `|x| = max x (-x) < ⊤` excludes both infinities, so `x` is a real number.
-/
import proofs.«428027_j14826227106018_2_alg».proof.Pre_finite_inputs
import proofs.«428027_j14826227106018_2_alg».proof.Proof.Gen.Pre_finite_inputs
import Idealize.ShloMosaic.PureOps.Ideal
import Idealize.ShloMosaic.PureOps.Ideal.Laws
import Idealize.ShloMosaic.Lib.ReduceAll
import Idealize.ShloMosaic.Lib.Affine

namespace Cert.Proof.PreDecode

open Idealize.ShloMosaic

/-- The rank-0 shape has one index: the empty tuple. -/
instance : Subsingleton Cert.Pre_finite_inputs.S_.Idx := ⟨fun _ _ => funext fun d => d.elim0⟩

/-- The f32 word `0x7F800000` is `+∞`. -/
theorem ofBits_inf : Ideal.ofBits .f32 0x7F800000#32 = (⊤ : EReal) := by simp [Ideal.ofBits, Ideal.ieee]

/-- The `i1` word of a Boolean is 1 exactly when the Boolean is true. -/
theorem ofBool_eq_one {b : Bool} : BitVec.ofBool b = 1#1 ↔ b = true := by cases b <;> decide

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

theorem decode [Cert.Pre_finite_inputs.Facts]
    (a0 a1 : Idealize.ShloMosaic.IVec Cert.Pre_finite_inputs.S131072 32)
    (a2 : Idealize.ShloMosaic.FVec Idealize.ShloMosaic.Ideal Cert.Pre_finite_inputs.S50000x300 .f32)
    (h : Cert.Pre_finite_inputs.fn (F := Idealize.ShloMosaic.Ideal) a0 a1 a2 = (fun _ => 1#1)) :
    (∀ i, ∃ r : ℝ, a2 i = (r : EReal)) ∧ (∀ n, 0 ≤ (a1 n).toInt ∧ (a1 n).toInt < 50000) := by
  have h0 := congrFun h (fun d => d.elim0)
  dsimp only [Cert.Pre_finite_inputs.fn, andi] at h0
  obtain ⟨h12, h3⟩ := IntOp.andi_eq_one.1 h0
  obtain ⟨h1, h2⟩ := IntOp.andi_eq_one.1 h12
  refine ⟨fun i => ?_, fun n => ⟨?_, ?_⟩⟩
  · have e := Host.reduce_andi_all _ _ _ _ _ h1 i
    dsimp only [cmpf, Host.absf, broadcastInDim, constant] at e
    rw [Ideal.cmpf_def, Ideal.hostAbsf_def, Ideal.absf_def, Ideal.ofBits_def, ofBits_inf] at e
    simp only [Ideal.cmp, ofBool_eq_one, decide_eq_true_eq] at e
    exact real_of_abs_lt_top _ e
  · have e := Host.reduce_andi_all _ _ _ _ _ h2 n
    dsimp only [cmpi, broadcastInDim, constantI] at e
    have := IntOp.cmpi_sge.1 e
    simpa using this
  · have e := Host.reduce_andi_all _ _ _ _ _ h3 n
    dsimp only [cmpi, broadcastInDim, constantI] at e
    have := IntOp.cmpi_slt.1 e
    simpa using this

end Cert.Proof.PreDecode
-- ==== Proof.lean ====
/-
  The certificate: a mean aggregation over sampled neighbours, computed two ways.

  Both programs build a 0/1 membership mask from the edge list (row_idx, col_idx): entry (b, u) is 1 exactly when some
  edge names query node b and neighbour u. The reference divides each mask row by its number of neighbours (bounded
  below by a small constant) and multiplies by the embedding table. The kernel multiplies the mask, padded by 48 zero
  columns, with the table widened by a column of ones and padded by 48 zero rows, accumulating 17 column blocks per
  row tile; the extra column counts the neighbours, and the feature columns are divided by that count (bounded below
  by the same constant) at the end.

  With every embedding a real number and every column index in [0, 50000) (the precondition; the kernel clamps the
  column indices to that range, which is then the identity), both masks are the same indicator, every quantity is
  real, the bounded count D is a positive real, and  ∑ᵤ (mᵤ / D) · eᵤ = (∑ᵤ mᵤ · eᵤ) / D  over the reals.

  The three frames are the generated ones (the reference's is its generated run with the result dropped); the ideal
  pass rewrote nothing, so the kernel's idealization is the kernel's own text.
-/
import proofs.«428027_j14826227106018_2_alg».proof.Defs
import proofs.«428027_j14826227106018_2_alg».proof.Proof.Gen.Kernel
import proofs.«428027_j14826227106018_2_alg».proof.Proof.Gen.Kernel.Skeleton
import proofs.«428027_j14826227106018_2_alg».proof.Proof.Gen.Kernel.Launch
import proofs.«428027_j14826227106018_2_alg».proof.Proof.Gen.Kernel.Points
import proofs.«428027_j14826227106018_2_alg».proof.Proof.Gen.Kernel.Frame
import proofs.«428027_j14826227106018_2_alg».proof.Proof.Gen.KernelIdeal
import proofs.«428027_j14826227106018_2_alg».proof.Proof.Gen.KernelIdeal.Skeleton
import proofs.«428027_j14826227106018_2_alg».proof.Proof.Gen.KernelIdeal.Launch
import proofs.«428027_j14826227106018_2_alg».proof.Proof.Gen.KernelIdeal.Points
import proofs.«428027_j14826227106018_2_alg».proof.Proof.Gen.KernelIdeal.Frame
import proofs.«428027_j14826227106018_2_alg».proof.Proof.Gen.ReferenceIdeal
import proofs.«428027_j14826227106018_2_alg».proof.Proof.Gen.Pre_finite_inputs
import proofs.«428027_j14826227106018_2_alg».proof.Proof.Gen.KernelIdeal.Value
import proofs.«428027_j14826227106018_2_alg».proof.Proof.Gen.ReferenceIdeal.Run
import proofs.«428027_j14826227106018_2_alg».proof.Proof.Gen.ReferenceIdeal.Read
import proofs.«428027_j14826227106018_2_alg».proof.Proof.KernelRun
import proofs.«428027_j14826227106018_2_alg».proof.Proof.KernelHost
import proofs.«428027_j14826227106018_2_alg».proof.Proof.RefMask
import proofs.«428027_j14826227106018_2_alg».proof.Proof.RefValue
import proofs.«428027_j14826227106018_2_alg».proof.Proof.PreDecode
import proofs.«428027_j14826227106018_2_alg».proof.Proof.Algebra
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end, from arguments that agree, at one function of them: the kernel's quotient of sums is the
    reference's sum of quotients. -/
theorem algebraic : Cert.algebraic_KernelIdeal_ReferenceIdeal := by
  intro m ρ m' ρ' hpre hagree
  refine ⟨fun c => Cert.Proof.Spec.kout (Cert.KernelIdeal.KRun.marr m c) (Cert.KernelIdeal.KRun.earr m c),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨hE, hcol⟩ := Cert.Proof.PreDecode.decode _ _ _ (hpre c)
  refine (Cert.ReferenceIdeal.Read.val_main_v21_eq (F := Ideal) _ _ _).trans ?_
  rw [Cert.Proof.RefValue.ref_value]
  exact (Cert.Proof.Algebra.bridge
    (Cert.Proof.Spec.hit (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))
    (fun b u ⟨n, _, hn⟩ => by have := (hcol (Shape.Idx.ofFin n)).2; omega)
    _ _ _ _
    (fun b u => Cert.Proof.KernelHost.mask_eq m c hcol b u)
    (fun b u => Cert.Proof.RefMask.ref_mask _ _ hcol b u)
    hE
    (fun u j => Cert.Proof.KernelHost.table_eq m c u j)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
